-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x19x256x256 : Shape := ⟨4, ![16, 19, 256, 256]⟩
abbrev S_ : Shape := ⟨0, ![]⟩

class Facts : Prop where
  bcast_S_S16x19x256x256 : S_.BroadcastsInDim S16x19x256x256 (![] : Fin 0 → Fin S16x19x256x256.rank)
  reducesTo_S16x19x256x256_S_d0_1_2_3 : S16x19x256x256.ReducesTo [0, 1, 2, 3] S_
  h_S_ : 0 < S_.numel

variable [Facts]

def fn {F : FTy → Type} [FloatOps F] (main_arg0 : FVec F S16x19x256x256 .f32) (main_arg1 : FVec F S16x19x256x256 .f32) : IVec S_ 1 :=
  let main_v0 : FVec F S16x19x256x256 .f32 := Host.absf main_arg0
  let main_cst : FVec F S_ .f32 := constant S_ .f32 0x7F800000#32
  let main_v1 : FVec F S16x19x256x256 .f32 := broadcastInDim S16x19x256x256 ![] bcast_S_S16x19x256x256 main_cst
  let main_v2 : IVec S16x19x256x256 1 := cmpf .olt main_v0 main_v1
  let main_c : IVec S_ 1 := constantI S_ 1 1#1
  let main_v3 : IVec S_ 1 := (fun x v => Host.reduce IntOp.andi x v reducesTo_S16x19x256x256_S_d0_1_2_3 h_S_) main_v2 main_c
  let main_v4 : FVec F S16x19x256x256 .f32 := Host.absf main_arg1
  let main_cst_0 : FVec F S_ .f32 := constant S_ .f32 0x7F800000#32
  let main_v5 : FVec F S16x19x256x256 .f32 := broadcastInDim S16x19x256x256 ![] bcast_S_S16x19x256x256 main_cst_0
  let main_v6 : IVec S16x19x256x256 1 := cmpf .olt main_v4 main_v5
  let main_c_1 : IVec S_ 1 := constantI S_ 1 1#1
  let main_v7 : IVec S_ 1 := (fun x v => Host.reduce IntOp.andi x v reducesTo_S16x19x256x256_S_d0_1_2_3 h_S_) main_v6 main_c_1
  let main_v8 : IVec S_ 1 := andi main_v3 main_v7
  main_v8
-- ==== Kernel.lean ====
abbrev S16x19x256x256 : Shape := ⟨4, ![16, 19, 256, 256]⟩
abbrev S16x8x128 : Shape := ⟨3, ![16, 8, 128]⟩
abbrev S1x19x256x256 : Shape := ⟨4, ![1, 19, 256, 256]⟩
abbrev S1x8x128 : Shape := ⟨3, ![1, 8, 128]⟩
abbrev S19x256x256 : Shape := ⟨3, ![19, 256, 256]⟩
abbrev S256x256 : Shape := ⟨2, ![256, 256]⟩
abbrev S1x19x254x254 : Shape := ⟨4, ![1, 19, 254, 254]⟩
abbrev S19x254x254 : Shape := ⟨3, ![19, 254, 254]⟩
abbrev S254x254 : Shape := ⟨2, ![254, 254]⟩
abbrev S1x254x254 : Shape := ⟨3, ![1, 254, 254]⟩
abbrev S1 : Shape := ⟨1, ![1]⟩
abbrev S1x1x1 : Shape := ⟨3, ![1, 1, 1]⟩
abbrev S8x128 : Shape := ⟨2, ![8, 128]⟩
abbrev S_ : Shape := ⟨0, ![]⟩

abbrev nBuf : Space → Nat
  | .hbm => 7
  | .vmem => 6
  | .smem => 0
  | _ => 0

abbrev bufTy : (tb : Table) → Fin (tcTables nBuf tb) → BufTy
  | .hbm, ⟨0, _⟩ => ⟨S16x19x256x256, .f32⟩
  | .hbm, ⟨1, _⟩ => ⟨S16x19x256x256, .f32⟩
  | .hbm, ⟨2, _⟩ => ⟨S16x8x128, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .local _ .vmem, ⟨0, _⟩ => ⟨S1x19x256x256, .f32⟩
  | .local _ .vmem, ⟨1, _⟩ => ⟨S1x19x256x256, .f32⟩
  | .local _ .vmem, ⟨2, _⟩ => ⟨S1x19x256x256, .f32⟩
  | .local _ .vmem, ⟨3, _⟩ => ⟨S1x19x256x256, .f32⟩
  | .local _ .vmem, ⟨4, _⟩ => ⟨S1x8x128, .f32⟩
  | .local _ .vmem, ⟨5, _⟩ => ⟨S1x8x128, .f32⟩
  | _, _ => ⟨S16x19x256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x19x256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x19x256x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1x19x256x256_S1x19x256x256_0_0_0_0 : ∀ a, (![0, 0, 0, 0] : Fin 4 → Nat) a + S1x19x256x256.size a ≤ S1x19x256x256.size a
  h_S1x19x256x256 : 0 < S1x19x256x256.numel
  shapeCasts_S1x19x256x256_S19x256x256 : S1x19x256x256.ShapeCasts S19x256x256
  reduces_S19x256x256_S256x256 : S19x256x256.Reduces [0] S256x256
  inb_S1x19x256x256_S1x19x254x254_0_0_1_1 : ∀ a, (![0, 0, 1, 1] : Fin 4 → Nat) a + S1x19x254x254.size a ≤ S1x19x256x256.size a
  h_S1x19x254x254 : 0 < S1x19x254x254.numel
  shapeCasts_S1x19x254x254_S19x254x254 : S1x19x254x254.ShapeCasts S19x254x254
  slices_S256x256_o1_1_S254x254 : S256x256.Slices ![1, 1] S254x254
  inb_S1x19x256x256_S1x19x254x254_0_0_0_0 : ∀ a, (![0, 0, 0, 0] : Fin 4 → Nat) a + S1x19x254x254.size a ≤ S1x19x256x256.size a
  reduces_S19x254x254_S254x254 : S19x254x254.Reduces [0] S254x254
  slices_S256x256_o0_0_S254x254 : S256x256.Slices ![0, 0] S254x254
  inb_S1x19x256x256_S1x19x254x254_0_0_0_1 : ∀ a, (![0, 0, 0, 1] : Fin 4 → Nat) a + S1x19x254x254.size a ≤ S1x19x256x256.size a
  slices_S256x256_o0_1_S254x254 : S256x256.Slices ![0, 1] S254x254
  inb_S1x19x256x256_S1x19x254x254_0_0_0_2 : ∀ a, (![0, 0, 0, 2] : Fin 4 → Nat) a + S1x19x254x254.size a ≤ S1x19x256x256.size a
  slices_S256x256_o0_2_S254x254 : S256x256.Slices ![0, 2] S254x254
  inb_S1x19x256x256_S1x19x254x254_0_0_1_0 : ∀ a, (![0, 0, 1, 0] : Fin 4 → Nat) a + S1x19x254x254.size a ≤ S1x19x256x256.size a
  slices_S256x256_o1_0_S254x254 : S256x256.Slices ![1, 0] S254x254
  inb_S1x19x256x256_S1x19x254x254_0_0_1_2 : ∀ a, (![0, 0, 1, 2] : Fin 4 → Nat) a + S1x19x254x254.size a ≤ S1x19x256x256.size a
  slices_S256x256_o1_2_S254x254 : S256x256.Slices ![1, 2] S254x254
  inb_S1x19x256x256_S1x19x254x254_0_0_2_0 : ∀ a, (![0, 0, 2, 0] : Fin 4 → Nat) a + S1x19x254x254.size a ≤ S1x19x256x256.size a
  slices_S256x256_o2_0_S254x254 : S256x256.Slices ![2, 0] S254x254
  inb_S1x19x256x256_S1x19x254x254_0_0_2_1 : ∀ a, (![0, 0, 2, 1] : Fin 4 → Nat) a + S1x19x254x254.size a ≤ S1x19x256x256.size a
  slices_S256x256_o2_1_S254x254 : S256x256.Slices ![2, 1] S254x254
  inb_S1x19x256x256_S1x19x254x254_0_0_2_2 : ∀ a, (![0, 0, 2, 2] : Fin 4 → Nat) a + S1x19x254x254.size a ≤ S1x19x256x256.size a
  slices_S256x256_o2_2_S254x254 : S256x256.Slices ![2, 2] S254x254
  shapeCasts_S254x254_S1x254x254 : S254x254.ShapeCasts S1x254x254
  reduces_S1x254x254_S1 : S1x254x254.Reduces [1, 2] S1
  shapeCasts_S1_S1x1x1 : S1.ShapeCasts S1x1x1
  inpos_S1x1x1_p0_0_0 : ∀ a, (![0, 0, 0] : Fin 3 → Nat) a < S1x1x1.size a
  iota_S8x128_d0_w32 : S8x128.Iotas .tc 32 [0]
  iota_S8x128_d1_w32 : S8x128.Iotas .tc 32 [1]
  inb_S1x8x128_S1x8x128_0_0_0 : ∀ a, (![0, 0, 0] : Fin 3 → Nat) a + S1x8x128.size a ≤ S1x8x128.size a
  h_S1x8x128 : 0 < S1x8x128.numel
  shapeCasts_S1x8x128_S8x128 : S1x8x128.ShapeCasts S8x128
  shapeCasts_S8x128_S1x8x128 : S8x128.ShapeCasts S1x8x128
  reducesTo_S16x8x128_S_d0_1_2 : S16x8x128.ReducesTo [0, 1, 2] S_
  h_S_ : 0 < S_.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x19x256x256.size a ≤ S16x19x256x256.size a
  hwx0_0 : ∀ i : grid0.Coords, EltTy.bits .f32 = 32 ∨ (Rect.block (s := S16x19x256x256) S1x19x256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x19x256x256.size a ≤ S16x19x256x256.size a
  hwx0_1 : ∀ i : grid0.Coords, EltTy.bits .f32 = 32 ∨ (Rect.block (s := S16x19x256x256) S1x19x256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S16x8x128.size a
  hwx0_2 : ∀ i : grid0.Coords, EltTy.bits .f32 = 32 ∨ (Rect.block (s := S16x8x128) S1x8x128.size (cc0_transform_2 i) (hinb0_2 i)).WholeWords (EltTy.packing .f32)

variable [Facts₀]

abbrev win0_0 : Pipeline.Window sig grid0 :=
  Pipeline.Window.ofSpec (Memref.whole main_arg0) S1x19x256x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x19x256x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x19x256x256 : Shape := ⟨4, ![16, 19, 256, 256]⟩
abbrev S16x19x254x254 : Shape := ⟨4, ![16, 19, 254, 254]⟩
abbrev S_ : Shape := ⟨0, ![]⟩
abbrev S16x254x254 : Shape := ⟨3, ![16, 254, 254]⟩
abbrev S16x1x254x254 : Shape := ⟨4, ![16, 1, 254, 254]⟩
abbrev S16x8x254x254 : Shape := ⟨4, ![16, 8, 254, 254]⟩

abbrev nBuf : Space → Nat
  | .hbm => 214
  | .vmem => 0
  | .smem => 0
  | _ => 0

abbrev hbmTy0_0 (i : Nat) : BufTy := match i % 128 with
  | 0 => ⟨S16x19x256x256, .f32⟩
  | 1 => ⟨S16x19x256x256, .f32⟩
  | 2 => ⟨S16x19x254x254, .f32⟩
  | 3 => ⟨S16x19x254x254, .f32⟩
  | 4 => ⟨S_, .f32⟩
  | 5 => ⟨S16x254x254, .f32⟩
  | 6 => ⟨S16x1x254x254, .f32⟩
  | 7 => ⟨S16x1x254x254, .f32⟩
  | 8 => ⟨S16x19x254x254, .f32⟩
  | 9 => ⟨S16x19x254x254, .f32⟩
  | 10 => ⟨S_, .f32⟩
  | 11 => ⟨S16x254x254, .f32⟩
  | 12 => ⟨S16x1x254x254, .f32⟩
  | 13 => ⟨S16x19x254x254, .f32⟩
  | 14 => ⟨S_, .f32⟩
  | 15 => ⟨S16x254x254, .f32⟩
  | 16 => ⟨S16x1x254x254, .f32⟩
  | 17 => ⟨S16x1x254x254, .f32⟩
  | 18 => ⟨S16x1x254x254, .f32⟩
  | 19 => ⟨S16x1x254x254, .f32⟩
  | 20 => ⟨S16x19x254x254, .f32⟩
  | 21 => ⟨S16x19x254x254, .f32⟩
  | 22 => ⟨S_, .f32⟩
  | 23 => ⟨S16x254x254, .f32⟩
  | 24 => ⟨S16x1x254x254, .f32⟩
  | 25 => ⟨S16x19x254x254, .f32⟩
  | 26 => ⟨S_, .f32⟩
  | 27 => ⟨S16x254x254, .f32⟩
  | 28 => ⟨S16x1x254x254, .f32⟩
  | 29 => ⟨S16x1x254x254, .f32⟩
  | 30 => ⟨S16x1x254x254, .f32⟩
  | 31 => ⟨S16x1x254x254, .f32⟩
  | 32 => ⟨S16x19x254x254, .f32⟩
  | 33 => ⟨S16x19x254x254, .f32⟩
  | 34 => ⟨S_, .f32⟩
  | 35 => ⟨S16x254x254, .f32⟩
  | 36 => ⟨S16x1x254x254, .f32⟩
  | 37 => ⟨S16x19x254x254, .f32⟩
  | 38 => ⟨S_, .f32⟩
  | 39 => ⟨S16x254x254, .f32⟩
  | 40 => ⟨S16x1x254x254, .f32⟩
  | 41 => ⟨S16x1x254x254, .f32⟩
  | 42 => ⟨S16x1x254x254, .f32⟩
  | 43 => ⟨S16x1x254x254, .f32⟩
  | 44 => ⟨S16x19x254x254, .f32⟩
  | 45 => ⟨S16x19x254x254, .f32⟩
  | 46 => ⟨S_, .f32⟩
  | 47 => ⟨S16x254x254, .f32⟩
  | 48 => ⟨S16x1x254x254, .f32⟩
  | 49 => ⟨S16x19x254x254, .f32⟩
  | 50 => ⟨S_, .f32⟩
  | 51 => ⟨S16x254x254, .f32⟩
  | 52 => ⟨S16x1x254x254, .f32⟩
  | 53 => ⟨S16x1x254x254, .f32⟩
  | 54 => ⟨S16x1x254x254, .f32⟩
  | 55 => ⟨S16x1x254x254, .f32⟩
  | 56 => ⟨S16x19x254x254, .f32⟩
  | 57 => ⟨S16x19x254x254, .f32⟩
  | 58 => ⟨S_, .f32⟩
  | 59 => ⟨S16x254x254, .f32⟩
  | 60 => ⟨S16x1x254x254, .f32⟩
  | 61 => ⟨S16x19x254x254, .f32⟩
  | 62 => ⟨S_, .f32⟩
  | 63 => ⟨S16x254x254, .f32⟩
  | 64 => ⟨S16x1x254x254, .f32⟩
  | 65 => ⟨S16x1x254x254, .f32⟩
  | 66 => ⟨S16x1x254x254, .f32⟩
  | 67 => ⟨S16x1x254x254, .f32⟩
  | 68 => ⟨S16x19x254x254, .f32⟩
  | 69 => ⟨S16x19x254x254, .f32⟩
  | 70 => ⟨S_, .f32⟩
  | 71 => ⟨S16x254x254, .f32⟩
  | 72 => ⟨S16x1x254x254, .f32⟩
  | 73 => ⟨S16x19x254x254, .f32⟩
  | 74 => ⟨S_, .f32⟩
  | 75 => ⟨S16x254x254, .f32⟩
  | 76 => ⟨S16x1x254x254, .f32⟩
  | 77 => ⟨S16x1x254x254, .f32⟩
  | 78 => ⟨S16x1x254x254, .f32⟩
  | 79 => ⟨S16x1x254x254, .f32⟩
  | 80 => ⟨S16x19x254x254, .f32⟩
  | 81 => ⟨S16x19x254x254, .f32⟩
  | 82 => ⟨S_, .f32⟩
  | 83 => ⟨S16x254x254, .f32⟩
  | 84 => ⟨S16x1x254x254, .f32⟩
  | 85 => ⟨S16x19x254x254, .f32⟩
  | 86 => ⟨S_, .f32⟩
  | 87 => ⟨S16x254x254, .f32⟩
  | 88 => ⟨S16x1x254x254, .f32⟩
  | 89 => ⟨S16x1x254x254, .f32⟩
  | 90 => ⟨S16x1x254x254, .f32⟩
  | 91 => ⟨S16x1x254x254, .f32⟩
  | 92 => ⟨S16x19x254x254, .f32⟩
  | 93 => ⟨S16x19x254x254, .f32⟩
  | 94 => ⟨S_, .f32⟩
  | 95 => ⟨S16x254x254, .f32⟩
  | 96 => ⟨S16x1x254x254, .f32⟩
  | 97 => ⟨S16x19x254x254, .f32⟩
  | 98 => ⟨S_, .f32⟩
  | 99 => ⟨S16x254x254, .f32⟩
  | 100 => ⟨S16x1x254x254, .f32⟩
  | 101 => ⟨S16x1x254x254, .f32⟩
  | 102 => ⟨S16x1x254x254, .f32⟩
  | 103 => ⟨S16x1x254x254, .f32⟩
  | 104 => ⟨S16x8x254x254, .f32⟩
  | 105 => ⟨S16x19x254x254, .f32⟩
  | 106 => ⟨S16x19x254x254, .f32⟩
  | 107 => ⟨S_, .f32⟩
  | 108 => ⟨S16x254x254, .f32⟩
  | 109 => ⟨S16x1x254x254, .f32⟩
  | 110 => ⟨S16x1x254x254, .f32⟩
  | 111 => ⟨S16x19x254x254, .f32⟩
  | 112 => ⟨S16x19x254x254, .f32⟩
  | 113 => ⟨S_, .f32⟩
  | 114 => ⟨S16x254x254, .f32⟩
  | 115 => ⟨S16x1x254x254, .f32⟩
  | 116 => ⟨S16x19x254x254, .f32⟩
  | 117 => ⟨S_, .f32⟩
  | 118 => ⟨S16x254x254, .f32⟩
  | 119 => ⟨S16x1x254x254, .f32⟩
  | 120 => ⟨S16x1x254x254, .f32⟩
  | 121 => ⟨S16x1x254x254, .f32⟩
  | 122 => ⟨S16x1x254x254, .f32⟩
  | 123 => ⟨S16x19x254x254, .f32⟩
  | 124 => ⟨S16x19x254x254, .f32⟩
  | 125 => ⟨S_, .f32⟩
  | 126 => ⟨S16x254x254, .f32⟩
  | 127 => ⟨S16x1x254x254, .f32⟩
  | _ => ⟨S16x19x256x256, .f32⟩

abbrev hbmTy0_1 (i : Nat) : BufTy := match i % 128 with
  | 0 => ⟨S16x19x254x254, .f32⟩
  | 1 => ⟨S_, .f32⟩
  | 2 => ⟨S16x254x254, .f32⟩
  | 3 => ⟨S16x1x254x254, .f32⟩
  | 4 => ⟨S16x1x254x254, .f32⟩
  | 5 => ⟨S16x1x254x254, .f32⟩
  | 6 => ⟨S16x1x254x254, .f32⟩
  | 7 => ⟨S16x19x254x254, .f32⟩
  | 8 => ⟨S16x19x254x254, .f32⟩
  | 9 => ⟨S_, .f32⟩
  | 10 => ⟨S16x254x254, .f32⟩
  | 11 => ⟨S16x1x254x254, .f32⟩
  | 12 => ⟨S16x19x254x254, .f32⟩
  | 13 => ⟨S_, .f32⟩
  | 14 => ⟨S16x254x254, .f32⟩
  | 15 => ⟨S16x1x254x254, .f32⟩
  | 16 => ⟨S16x1x254x254, .f32⟩
  | 17 => ⟨S16x1x254x254, .f32⟩
  | 18 => ⟨S16x1x254x254, .f32⟩
  | 19 => ⟨S16x19x254x254, .f32⟩
  | 20 => ⟨S16x19x254x254, .f32⟩
  | 21 => ⟨S_, .f32⟩
  | 22 => ⟨S16x254x254, .f32⟩
  | 23 => ⟨S16x1x254x254, .f32⟩
  | 24 => ⟨S16x19x254x254, .f32⟩
  | 25 => ⟨S_, .f32⟩
  | 26 => ⟨S16x254x254, .f32⟩
  | 27 => ⟨S16x1x254x254, .f32⟩
  | 28 => ⟨S16x1x254x254, .f32⟩
  | 29 => ⟨S16x1x254x254, .f32⟩
  | 30 => ⟨S16x1x254x254, .f32⟩
  | 31 => ⟨S16x19x254x254, .f32⟩
  | 32 => ⟨S16x19x254x254, .f32⟩
  | 33 => ⟨S_, .f32⟩
  | 34 => ⟨S16x254x254, .f32⟩
  | 35 => ⟨S16x1x254x254, .f32⟩
  | 36 => ⟨S16x19x254x254, .f32⟩
  | 37 => ⟨S_, .f32⟩
  | 38 => ⟨S16x254x254, .f32⟩
  | 39 => ⟨S16x1x254x254, .f32⟩
  | 40 => ⟨S16x1x254x254, .f32⟩
  | 41 => ⟨S16x1x254x254, .f32⟩
  | 42 => ⟨S16x1x254x254, .f32⟩
  | 43 => ⟨S16x19x254x254, .f32⟩
  | 44 => ⟨S16x19x254x254, .f32⟩
  | 45 => ⟨S_, .f32⟩
  | 46 => ⟨S16x254x254, .f32⟩
  | 47 => ⟨S16x1x254x254, .f32⟩
  | 48 => ⟨S16x19x254x254, .f32⟩
  | 49 => ⟨S_, .f32⟩
  | 50 => ⟨S16x254x254, .f32⟩
  | 51 => ⟨S16x1x254x254, .f32⟩
  | 52 => ⟨S16x1x254x254, .f32⟩
  | 53 => ⟨S16x1x254x254, .f32⟩
  | 54 => ⟨S16x1x254x254, .f32⟩
  | 55 => ⟨S16x19x254x254, .f32⟩
  | 56 => ⟨S16x19x254x254, .f32⟩
  | 57 => ⟨S_, .f32⟩
  | 58 => ⟨S16x254x254, .f32⟩
  | 59 => ⟨S16x1x254x254, .f32⟩
  | 60 => ⟨S16x19x254x254, .f32⟩
  | 61 => ⟨S_, .f32⟩
  | 62 => ⟨S16x254x254, .f32⟩
  | 63 => ⟨S16x1x254x254, .f32⟩
  | 64 => ⟨S16x1x254x254, .f32⟩
  | 65 => ⟨S16x1x254x254, .f32⟩
  | 66 => ⟨S16x1x254x254, .f32⟩
  | 67 => ⟨S16x19x254x254, .f32⟩
  | 68 => ⟨S16x19x254x254, .f32⟩
  | 69 => ⟨S_, .f32⟩
  | 70 => ⟨S16x254x254, .f32⟩
  | 71 => ⟨S16x1x254x254, .f32⟩
  | 72 => ⟨S16x19x254x254, .f32⟩
  | 73 => ⟨S_, .f32⟩
  | 74 => ⟨S16x254x254, .f32⟩
  | 75 => ⟨S16x1x254x254, .f32⟩
  | 76 => ⟨S16x1x254x254, .f32⟩
  | 77 => ⟨S16x1x254x254, .f32⟩
  | 78 => ⟨S16x1x254x254, .f32⟩
  | 79 => ⟨S16x8x254x254, .f32⟩
  | 80 => ⟨S16x8x254x254, .f32⟩
  | 81 => ⟨S16x8x254x254, .f32⟩
  | 82 => ⟨S_, .f32⟩
  | 83 => ⟨S_, .f32⟩
  | 84 => ⟨S_, .f32⟩
  | 85 => ⟨S_, .f32⟩
  | _ => ⟨S16x19x256x256, .f32⟩

abbrev hbmTy (i : Nat) : BufTy := match i / 128 with
  | 0 => hbmTy0_0 i
  | 1 => hbmTy0_1 i
  | _ => ⟨S16x19x256x256, .f32⟩

abbrev bufTy : (tb : Table) → Fin (tcTables nBuf tb) → BufTy
  | .hbm, ⟨i, _⟩ => hbmTy i
  | _, _ => ⟨S16x19x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst_2 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_3 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_4 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_cst_5 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_6 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_7 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_cst_8 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_cst_9 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_cst_10 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_cst_11 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_cst_12 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_cst_13 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_cst_14 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_cst_15 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_cst_16 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_17 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_18 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev main_v100 : Ref sig .tc := ⟨.hbm, 122, rfl⟩
abbrev main_v101 : Ref sig .tc := ⟨.hbm, 123, rfl⟩
abbrev main_v102 : Ref sig .tc := ⟨.hbm, 124, rfl⟩
abbrev main_cst_19 : Ref sig .tc := ⟨.hbm, 125, rfl⟩
abbrev main_v103 : Ref sig .tc := ⟨.hbm, 126, rfl⟩
abbrev main_v104 : Ref sig .tc := ⟨.hbm, 127, rfl⟩
abbrev main_v105 : Ref sig .tc := ⟨.hbm, 128, rfl⟩
abbrev main_cst_20 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_cst_21 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_cst_22 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_cst_23 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_cst_24 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_v130 : Ref sig .tc := ⟨.hbm, 158, rfl⟩
abbrev main_v131 : Ref sig .tc := ⟨.hbm, 159, rfl⟩
abbrev main_v132 : Ref sig .tc := ⟨.hbm, 160, rfl⟩
abbrev main_cst_25 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_cst_26 : Ref sig .tc := ⟨.hbm, 165, rfl⟩
abbrev main_v136 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_v140 : Ref sig .tc := ⟨.hbm, 170, rfl⟩
abbrev main_v141 : Ref sig .tc := ⟨.hbm, 171, rfl⟩
abbrev main_v142 : Ref sig .tc := ⟨.hbm, 172, rfl⟩
abbrev main_cst_27 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_28 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_cst_29 : Ref sig .tc := ⟨.hbm, 185, rfl⟩
abbrev main_v153 : Ref sig .tc := ⟨.hbm, 186, rfl⟩
abbrev main_v154 : Ref sig .tc := ⟨.hbm, 187, rfl⟩
abbrev main_v155 : Ref sig .tc := ⟨.hbm, 188, rfl⟩
abbrev main_cst_30 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_cst_31 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_cst_32 : Ref sig .tc := ⟨.hbm, 201, rfl⟩
abbrev main_v166 : Ref sig .tc := ⟨.hbm, 202, rfl⟩
abbrev main_v167 : Ref sig .tc := ⟨.hbm, 203, rfl⟩
abbrev main_v168 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_cst_33 : Ref sig .tc := ⟨.hbm, 210, rfl⟩
abbrev main_v174 : Ref sig .tc := ⟨.hbm, 211, rfl⟩
abbrev main_cst_34 : Ref sig .tc := ⟨.hbm, 212, rfl⟩
abbrev main_v175 : Ref sig .tc := ⟨.hbm, 213, rfl⟩

abbrev nD : Nat := 1
abbrev τ : Topo := Topo.v7x

variable {F : FTy → Type} [FloatOps F]

class Facts₀ : Prop where
  slices_S16x19x256x256_S16x19x254x254_0_0_1_1 : S16x19x256x256.Slices ![0, 0, 1, 1] S16x19x254x254
  reducesTo_S16x19x254x254_S16x254x254_d1 : S16x19x254x254.ReducesTo [1] S16x254x254
  h_S_ : 0 < S_.numel
  bcast_S16x254x254_S16x1x254x254_0_2_3 : S16x254x254.BroadcastsInDim S16x1x254x254 (![0, 2, 3] : Fin 3 → Fin S16x1x254x254.rank)
  slices_S16x19x256x256_S16x19x254x254_0_0_0_0 : S16x19x256x256.Slices ![0, 0, 0, 0] S16x19x254x254
  slices_S16x19x256x256_S16x19x254x254_0_0_0_1 : S16x19x256x256.Slices ![0, 0, 0, 1] S16x19x254x254
  slices_S16x19x256x256_S16x19x254x254_0_0_0_2 : S16x19x256x256.Slices ![0, 0, 0, 2] S16x19x254x254
  slices_S16x19x256x256_S16x19x254x254_0_0_1_0 : S16x19x256x256.Slices ![0, 0, 1, 0] S16x19x254x254
  slices_S16x19x256x256_S16x19x254x254_0_0_1_2 : S16x19x256x256.Slices ![0, 0, 1, 2] S16x19x254x254
  slices_S16x19x256x256_S16x19x254x254_0_0_2_0 : S16x19x256x256.Slices ![0, 0, 2, 0] S16x19x254x254
  slices_S16x19x256x256_S16x19x254x254_0_0_2_1 : S16x19x256x256.Slices ![0, 0, 2, 1] S16x19x254x254
  slices_S16x19x256x256_S16x19x254x254_0_0_2_2 : S16x19x256x256.Slices ![0, 0, 2, 2] S16x19x254x254
  concatenates_S16x1x254x254_S16x1x254x254_S16x1x254x254_S16x1x254x254_S16x1x254x254_S16x1x254x254_S16x1x254x254_S16x1x254x254_S16x8x254x254_d1 : Shape.Concatenates [S16x1x254x254, S16x1x254x254, S16x1x254x254, S16x1x254x254, S16x1x254x254, S16x1x254x254, S16x1x254x254, S16x1x254x254] S16x8x254x254 1
  reducesTo_S16x8x254x254_S_d0_1_2_3 : S16x8x254x254.ReducesTo [0, 1, 2, 3] S_

variable [Facts₀]

class Facts : Prop extends Facts₀ where

variable [Facts]
-- ==== Proof.CosMap.lean ====
/-
  The neighbour-cosine map, as one function of an array's entries.

  For an array `A` of shape [n, 19, 256, 256] (batch, channel, row, column), an offset (oy, ox) with each of
  oy, ox in {0, 1, 2}, a batch member `b` and an interior pixel (y, x) with y, x < 254, put
    centre    = (1 + y, 1 + x)            neighbour = (oy + y, ox + x)
    dotc      = Σ_c A[b, c, centre] · A[b, c, neighbour]
    sqn(i, j) = Σ_c A[b, c, i, j]²
    cosAt     = (dotc · rsqrt (sqn centre)) · rsqrt (sqn neighbour)
  over the extended reals, the products associated in exactly this order.  Both programs compute this value: the
  reference slices the array first and reduces each slice over the channel axis, the kernel reduces the whole
  plane once, takes the reciprocal square root of the whole plane, and slices afterwards.  Slicing commutes with a
  pointwise operation and with a sum over another axis, so the two agree entry by entry; no law of the extended
  reals beyond that is used here.
-/
import Idealize.ShloMosaic.PureOps.Ideal.Laws
import Idealize.ShloMosaic.Lib.ValueIdx
import Idealize.ShloMosaic.Lib.IdealHost
import Idealize.ShloMosaic.Lib.Pipeline.Value

noncomputable section

namespace Cert.CosMse

open Idealize.ShloMosaic Idealize.ShloMosaic.ValueIdx

/-- The argument's shape with `n` batch members. -/
abbrev SArgN (n : ℕ) : Shape := ⟨4, ![n, 19, 256, 256]⟩

/-- Row or column `o + y` of the full plane, for an offset `o ≤ 2` and an interior coordinate `y < 254`. -/
def sh (o : Fin 3) (y : Fin 254) : Fin 256 := ⟨o.val + y.val, by omega⟩

@[simp] theorem sh_val (o : Fin 3) (y : Fin 254) : (sh o y).val = o.val + y.val := rfl

/-- The squared norm over the channels at one pixel of the full plane. -/
def sqn {n : ℕ} (A : (SArgN n).Idx → EReal) (b : Fin n) (i j : Fin 256) : EReal :=
  ∑ c : Fin 19, A (ix4 b c i j) * A (ix4 b c i j)

/-- The channel dot product of the centre pixel with its neighbour at offset (oy, ox). -/
def dotc {n : ℕ} (A : (SArgN n).Idx → EReal) (oy ox : Fin 3) (b : Fin n) (y x : Fin 254) : EReal :=
  ∑ c : Fin 19, A (ix4 b c (sh 1 y) (sh 1 x)) * A (ix4 b c (sh oy y) (sh ox x))

/-- The cosine of the centre pixel's channel vector with its neighbour's, as both programs associate it. -/
def cosAt {n : ℕ} (A : (SArgN n).Idx → EReal) (oy ox : Fin 3) (b : Fin n) (y x : Fin 254) : EReal :=
  dotc A oy ox b y x * Ideal.rsqrt (sqn A b (sh 1 y) (sh 1 x)) * Ideal.rsqrt (sqn A b (sh oy y) (sh ox x))

/-- The cosine map depends on the array only through the entries of member `b`. -/
theorem cosAt_congr {n n' : ℕ} (A : (SArgN n).Idx → EReal) (A' : (SArgN n').Idx → EReal) (b : Fin n) (b' : Fin n')
    (h : ∀ c i j, A (ix4 b c i j) = A' (ix4 b' c i j)) (oy ox : Fin 3) (y x : Fin 254) :
    cosAt A oy ox b y x = cosAt A' oy ox b' y x := by
  unfold cosAt dotc sqn
  simp only [h]

/-! ## The reference's spelling: slice, multiply, sum over the channel axis, broadcast back, reciprocal root -/

abbrev SArg : Shape := SArgN 16
abbrev SCut : Shape := ⟨4, ![16, 19, 254, 254]⟩
abbrev SRed : Shape := ⟨3, ![16, 254, 254]⟩
abbrev SOne : Shape := ⟨4, ![16, 1, 254, 254]⟩
abbrev S0 : Shape := ⟨0, ![]⟩

/-- The reference's slice of the argument at plane offsets (oy, ox) reads the argument there. -/
theorem hostSlice_apply (A : FVec Ideal SArg .f32) (oy ox : ℕ) (hoy : oy < 3) (hox : ox < 3)
    (h : SArg.Slices ![0, 0, oy, ox] SCut) (b : Fin 16) (c : Fin 19) (y x : Fin 254) :
    extractStridedSlice SCut ![0, 0, oy, ox] A h (ix4 b c y x) = A (ix4 b c (sh ⟨oy, hoy⟩ y) (sh ⟨ox, hox⟩ x)) :=
  extractStridedSlice_apply _ _ h _ _ (fun a => by
    match a with
    | ⟨0, _⟩ => show b.val = 0 + b.val; omega
    | ⟨1, _⟩ => show c.val = 0 + c.val; omega
    | ⟨2, _⟩ => rfl
    | ⟨3, _⟩ => rfl)

/-- The reference's sum over the channel axis, broadcast back to a unit channel axis, is the sum over the
    nineteen channels (the host starts its sum from the zero word, which adds nothing). -/
theorem hostChanSum_apply (Z : FVec Ideal SCut .f32) (hr : SCut.ReducesTo [1] SRed) (hu : 0 < S0.numel)
    (hb : SRed.BroadcastsInDim SOne ![0, 2, 3]) (b : Fin 16) (u : Fin 1) (y x : Fin 254) :
    broadcastInDim SOne ![0, 2, 3] hb (Host.reduceAdd Z (constant S0 .f32 0x00000000#32) hr hu) (ix4 b u y x)
      = ∑ c : Fin 19, Z (ix4 b c y x) := by
  rw [broadcastInDim_apply _ hb _ _ (ix3 b y x) (fun a => by
    match a with
    | ⟨0, _⟩ => rfl
    | ⟨1, _⟩ => rfl
    | ⟨2, _⟩ => rfl)]
  rw [hostReduceAdd_apply, Ideal.hostReduceAdd_single hr (by decide), constant_apply, Ideal.ofBits_zero_f32, zero_add]
  refine Finset.sum_congr rfl fun k _ => congrArg Z (funext fun a => ?_)
  match a with
  | ⟨0, _⟩ => rfl
  | ⟨1, _⟩ => rfl
  | ⟨2, _⟩ => rfl
  | ⟨3, _⟩ => rfl

/-- One of the reference's sixteen pieces, as its host operations spell it: for the argument `A` and the
    neighbour offset (oy, ox), `(Σ_c centre · neighbour) · rsqrt (Σ_c centre²) · rsqrt (Σ_c neighbour²)` over the
    sliced arrays, with a unit channel axis. -/
def refPiece (A : FVec Ideal SArg .f32) (oy ox : ℕ) (h11 : SArg.Slices ![0, 0, 1, 1] SCut)
    (h : SArg.Slices ![0, 0, oy, ox] SCut) (hr : SCut.ReducesTo [1] SRed) (hu : 0 < S0.numel)
    (hb : SRed.BroadcastsInDim SOne ![0, 2, 3]) : FVec Ideal SOne .f32 :=
  mulf (mulf
      (broadcastInDim SOne ![0, 2, 3] hb (Host.reduceAdd (mulf (extractStridedSlice SCut ![0, 0, 1, 1] A h11) (extractStridedSlice SCut ![0, 0, oy, ox] A h)) (constant S0 .f32 0x00000000#32) hr hu))
      (Host.rsqrt (broadcastInDim SOne ![0, 2, 3] hb (Host.reduceAdd (mulf (extractStridedSlice SCut ![0, 0, 1, 1] A h11) (extractStridedSlice SCut ![0, 0, 1, 1] A h11)) (constant S0 .f32 0x00000000#32) hr hu))))
    (Host.rsqrt (broadcastInDim SOne ![0, 2, 3] hb (Host.reduceAdd (mulf (extractStridedSlice SCut ![0, 0, oy, ox] A h) (extractStridedSlice SCut ![0, 0, oy, ox] A h)) (constant S0 .f32 0x00000000#32) hr hu)))

/-- That piece, read at an index, is the cosine map. -/
theorem refPiece_apply (A : FVec Ideal SArg .f32) (oy ox : ℕ) (hoy : oy < 3) (hox : ox < 3)
    (h11 : SArg.Slices ![0, 0, 1, 1] SCut) (h : SArg.Slices ![0, 0, oy, ox] SCut) (hr : SCut.ReducesTo [1] SRed)
    (hu : 0 < S0.numel) (hb : SRed.BroadcastsInDim SOne ![0, 2, 3]) (b : Fin 16) (u : Fin 1) (y x : Fin 254) :
    refPiece A oy ox h11 h hr hu hb (ix4 b u y x) = cosAt A ⟨oy, hoy⟩ ⟨ox, hox⟩ b y x := by
  unfold refPiece cosAt dotc sqn
  simp only [mulf_apply]
  show _ * Ideal.rsqrt _ * Ideal.rsqrt _ = _
  rw [hostChanSum_apply, hostChanSum_apply, hostChanSum_apply]
  simp only [mulf_apply, hostSlice_apply A oy ox hoy hox h, hostSlice_apply A 1 1 (by decide) (by decide) h11]
  rfl

/-! ## Sums over a rank-3 and a rank-4 index set, coordinate by coordinate -/

/-- A rank-3 index set is the product of its coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  simp only [Fintype.sum_prod_type]
  rfl

/-- A rank-4 index set is the product of its coordinate ranges … -/
def idxEquiv4 {n0 n1 n2 n3 : ℕ} : (⟨4, ![n0, n1, n2, n3]⟩ : Shape).Idx ≃ Fin n0 × Fin n1 × Fin n2 × Fin n3 where
  toFun i := (i 0, i 1, i 2, i 3)
  invFun p := ix4 p.1 p.2.1 p.2.2.1 p.2.2.2
  left_inv i := (eq_ix4 i).symm
  right_inv _ := rfl

/-- … so a sum over it is the fourfold sum over the coordinates. -/
theorem sum_idx4 {M : Type*} [AddCommMonoid M] {n0 n1 n2 n3 : ℕ} (f : (⟨4, ![n0, n1, n2, n3]⟩ : Shape).Idx → M) :
    ∑ i, f i = ∑ a : Fin n0, ∑ b : Fin n1, ∑ c : Fin n2, ∑ d : Fin n3, f (ix4 a b c d) := by
  rw [← Equiv.sum_comp (idxEquiv4 (n0 := n0) (n1 := n1) (n2 := n2) (n3 := n3)).symm f, Fintype.sum_prod_type]
  simp only [Fintype.sum_prod_type]
  rfl

/-! ## The kernel's spelling: one block [1, 19, 256, 256], the whole plane reduced once and sliced afterwards -/

abbrev KBlk : Shape := SArgN 1
abbrev KBlkCut : Shape := ⟨4, ![1, 19, 254, 254]⟩
abbrev KVol : Shape := ⟨3, ![19, 256, 256]⟩
abbrev KVolCut : Shape := ⟨3, ![19, 254, 254]⟩
abbrev KPlane : Shape := ⟨2, ![256, 256]⟩
abbrev KCut : Shape := ⟨2, ![254, 254]⟩

/-- The reciprocal root of the squared channel norm, over the block's whole plane. -/
def rsqP (W : KBlk.Idx → EReal) : FVec Ideal KPlane .f32 := fun p => Ideal.rsqrt (sqn W 0 (p 0) (p 1))

/-- The cosine map of the block at offset (oy, ox), over the interior. -/
def termK (W : KBlk.Idx → EReal) (oy ox : Fin 3) : FVec Ideal KCut .f32 := fun p => cosAt W oy ox 0 (p 0) (p 1)

/-- The kernel's whole-plane reduction of the squared block and its reciprocal root is `rsqP`. -/
theorem kerRsq_eq (W : Vec Ideal KBlk .f32) (hc : KBlk.ShapeCasts KVol) (hr : KVol.Reduces [0] KPlane)
    (hφ : FKind.Formats .f32) (hacc : (0x00000000#32 : BitVec 32) = 0x00000000#32) :
    rsqrt (multiReduction .add [0] KPlane (mulf (shapeCast KVol W hc) (shapeCast KVol W hc)) 0x00000000#32 hr hφ hacc)
      = rsqP W := by
  funext p
  obtain ⟨i, j, rfl⟩ : ∃ (i j : Fin 256), p = ix2 i j := ⟨p 0, p 1, eq_ix2 p⟩
  show Ideal.rsqrt _ = Ideal.rsqrt _
  refine congrArg Ideal.rsqrt ((Ideal.multiReduction_add_single _ 0x00000000#32 hr hφ hacc (ix2 i j)).trans ?_)
  unfold sqn
  refine Finset.sum_congr rfl fun k _ => ?_
  rw [mulf_apply, shapeCast_dropUnit_apply]
  refine congrArg (fun t => W t * W t) (funext fun a => ?_)
  match a with
  | ⟨0, _⟩ => rfl
  | ⟨1, _⟩ => rfl
  | ⟨2, _⟩ => rfl
  | ⟨3, _⟩ => rfl

/-- One offset's term of the kernel body — the channel sum of the centre load times the neighbour load, times the
    centre's slice of the reciprocal-root plane, times the neighbour's slice — is the cosine map of the block. -/
theorem kerTerm_eq (W : Vec Ideal KBlk .f32) (oy ox : ℕ) (hoy : oy < 3) (hox : ox < 3)
    (inbC : ∀ a, (![0, 0, 1, 1] : Fin 4 → ℕ) a + KBlkCut.size a ≤ KBlk.size a)
    (inbN : ∀ a, (![0, 0, oy, ox] : Fin 4 → ℕ) a + KBlkCut.size a ≤ KBlk.size a)
    (hc : KBlkCut.ShapeCasts KVolCut) (hr : KVolCut.Reduces [0] KCut)
    (hs11 : KPlane.Slices ![1, 1] KCut) (hs : KPlane.Slices ![oy, ox] KCut)
    (hφ : FKind.Formats .f32) (hacc : (0x00000000#32 : BitVec 32) = 0x00000000#32) :
    mulf (mulf (multiReduction .add [0] KCut
            (mulf (shapeCast KVolCut (View.ld W (Rect.unit (s := KBlk) ![0, 0, 1, 1] KBlkCut.size inbC)) hc)
                  (shapeCast KVolCut (View.ld W (Rect.unit (s := KBlk) ![0, 0, oy, ox] KBlkCut.size inbN)) hc))
            0x00000000#32 hr hφ hacc)
          (extractStridedSlice KCut ![1, 1] (rsqP W) hs11))
      (extractStridedSlice KCut ![oy, ox] (rsqP W) hs)
    = termK W ⟨oy, hoy⟩ ⟨ox, hox⟩ := by
  funext p
  obtain ⟨y, x, rfl⟩ : ∃ (y x : Fin 254), p = ix2 y x := ⟨p 0, p 1, eq_ix2 p⟩
  show _ * _ * _ = cosAt W _ _ 0 y x
  unfold cosAt
  rw [extractStridedSlice_apply _ _ hs11 _ (ix2 (sh 1 y) (sh 1 x)) (fun a => by
      match a with
      | ⟨0, _⟩ => rfl
      | ⟨1, _⟩ => rfl),
    extractStridedSlice_apply _ _ hs _ (ix2 (sh ⟨oy, hoy⟩ y) (sh ⟨ox, hox⟩ x)) (fun a => by
      match a with
      | ⟨0, _⟩ => rfl
      | ⟨1, _⟩ => rfl)]
  show _ * Ideal.rsqrt (sqn W 0 (sh 1 y) (sh 1 x)) * Ideal.rsqrt (sqn W 0 (sh ⟨oy, hoy⟩ y) (sh ⟨ox, hox⟩ x)) = _
  refine congrArg (fun s => s * Ideal.rsqrt (sqn W 0 (sh 1 y) (sh 1 x)) * Ideal.rsqrt (sqn W 0 (sh ⟨oy, hoy⟩ y) (sh ⟨ox, hox⟩ x)))
    ((Ideal.multiReduction_add_single _ 0x00000000#32 hr hφ hacc (ix2 y x)).trans ?_)
  unfold dotc
  refine Finset.sum_congr rfl fun k _ => ?_
  rw [mulf_apply, shapeCast_dropUnit_apply, shapeCast_dropUnit_apply]
  have e1 : (Rect.unit (s := KBlk) ![0, 0, 1, 1] KBlkCut.size inbC).idx (Fin.cons ⟨0, Nat.one_pos⟩ (hr.lift (ix2 y x) k))
      = ix4 0 k (sh 1 y) (sh 1 x) := by
    funext a
    match a with
    | ⟨0, _⟩ => rfl
    | ⟨1, _⟩ => exact Fin.ext (by show 0 + 1 * k.val = k.val; omega)
    | ⟨2, _⟩ => exact Fin.ext (by show 1 + 1 * y.val = 1 + y.val; omega)
    | ⟨3, _⟩ => exact Fin.ext (by show 1 + 1 * x.val = 1 + x.val; omega)
  have e2 : (Rect.unit (s := KBlk) ![0, 0, oy, ox] KBlkCut.size inbN).idx (Fin.cons ⟨0, Nat.one_pos⟩ (hr.lift (ix2 y x) k))
      = ix4 0 k (sh ⟨oy, hoy⟩ y) (sh ⟨ox, hox⟩ x) := by
    funext a
    match a with
    | ⟨0, _⟩ => rfl
    | ⟨1, _⟩ => exact Fin.ext (by show 0 + 1 * k.val = k.val; omega)
    | ⟨2, _⟩ => exact Fin.ext (by show oy + 1 * y.val = oy + y.val; omega)
    | ⟨3, _⟩ => exact Fin.ext (by show ox + 1 * x.val = ox + x.val; omega)
  show W _ * W _ = _
  rw [e1, e2]
  rfl

/-! ## The kernel's last step: the total over the interior, kept in the first entry of an [8, 128] tile -/

abbrev KOne : Shape := ⟨3, ![1, 254, 254]⟩
abbrev K1 : Shape := ⟨1, ![1]⟩
abbrev K111 : Shape := ⟨3, ![1, 1, 1]⟩
abbrev KTile : Shape := ⟨2, ![8, 128]⟩
abbrev KOut : Shape := ⟨3, ![1, 8, 128]⟩

/-- The output block: `T` at row 0, lane 0, zero everywhere else. -/
def tileOf (T : EReal) : KOut.Idx → EReal := fun j => if (j 1).val = 0 ∧ (j 2).val = 0 then T else 0

/-- A small coordinate's word is the zero word exactly when the coordinate is zero. -/
theorem ofNat_eq_zero_iff (n : ℕ) (hn : n < 2 ^ 32) : BitVec.ofNat 32 n = 0#32 ↔ n = 0 := by
  constructor
  · intro h
    have := congrArg BitVec.toNat h
    simp only [BitVec.toNat_ofNat, BitVec.toNat_zero] at this
    omega
  · rintro rfl; rfl

/-- The mask "row = 0 and lane = 0", as the kernel computes it on words, selects by that condition. -/
theorem select_mask (r c : ℕ) (hr : r < 8) (hc : c < 128) (A B : EReal) :
    Scalar.select (IntOp.andi (IntOp.cmpi .eq (BitVec.ofNat 32 r) 0#32) (IntOp.cmpi .eq (BitVec.ofNat 32 c) 0#32)) A B
      = if r = 0 ∧ c = 0 then A else B := by
  have e1 : IntOp.cmpi .eq (BitVec.ofNat 32 r) 0#32 = if r = 0 then 1#1 else 0#1 := by
    by_cases h : r = 0
    · subst h; rfl
    · rw [if_neg h]
      have : ¬ (BitVec.ofNat 32 r = 0#32) := fun e => h ((ofNat_eq_zero_iff r (by omega)).mp e)
      show BitVec.ofBool (BitVec.ofNat 32 r == 0#32) = 0#1
      rw [beq_eq_false_iff_ne.mpr this]; rfl
  have e2 : IntOp.cmpi .eq (BitVec.ofNat 32 c) 0#32 = if c = 0 then 1#1 else 0#1 := by
    by_cases h : c = 0
    · subst h; rfl
    · rw [if_neg h]
      have : ¬ (BitVec.ofNat 32 c = 0#32) := fun e => h ((ofNat_eq_zero_iff c (by omega)).mp e)
      show BitVec.ofBool (BitVec.ofNat 32 c == 0#32) = 0#1
      rw [beq_eq_false_iff_ne.mpr this]; rfl
  rw [e1, e2]
  by_cases h1 : r = 0 <;> by_cases h2 : c = 0 <;> simp [h1, h2, IntOp.andi, Scalar.select]

/-- The masked tile at a tile index: the kept value at row 0, lane 0, the other value elsewhere. -/
theorem maskTile_apply (hi0 : KTile.Iotas .tc 32 [0]) (hi1 : KTile.Iotas .tc 32 [1]) (T Z : EReal) (q : KTile.Idx) :
    select (andi (cmpi .eq (iota .tc KTile 32 [0] hi0) (broadcast KTile 0#32))
                 (cmpi .eq (iota .tc KTile 32 [1] hi1) (broadcast KTile 0#32)))
        (broadcast KTile T) (broadcast KTile Z) q
      = if (q 0).val = 0 ∧ (q 1).val = 0 then T else Z := by
  show Scalar.select (IntOp.andi (IntOp.cmpi .eq (iota .tc KTile 32 [0] hi0 q) 0#32)
      (IntOp.cmpi .eq (iota .tc KTile 32 [1] hi1 q) 0#32)) T Z = _
  rw [iota_single_apply, iota_single_apply]
  exact select_mask _ _ (q 0).isLt (q 1).isLt _ _

/-- The total over the interior, as the kernel takes it: one reduction over both plane axes of the accumulator
    under a unit leading axis, read out of the one-entry result. -/
theorem kerTotal_eq (acc : FVec Ideal KCut .f32) (hc1 : KCut.ShapeCasts KOne) (hr : KOne.Reduces [1, 2] K1)
    (hc2 : K1.ShapeCasts K111) (hpos : ∀ a, (![0, 0, 0] : Fin 3 → ℕ) a < K111.size a)
    (hφ : FKind.Formats .f32) (hacc : (0x00000000#32 : BitVec 32) = 0x00000000#32) :
    extractAt ![0, 0, 0] (shapeCast K111 (multiReduction .add [1, 2] K1 (shapeCast KOne acc hc1) 0x00000000#32 hr hφ hacc) hc2) hpos
      = ∑ y : Fin 254, ∑ x : Fin 254, acc (ix2 y x) := by
  unfold extractAt
  show multiReduction .add [1, 2] K1 (shapeCast KOne acc hc1) 0x00000000#32 hr hφ hacc _ = _
  refine (Ideal.multiReduction_add_total _ 0x00000000#32 hr (fun b => by match b with | ⟨0, _⟩ => rfl) hφ hacc _).trans ?_
  rw [sum_idx3, Fin.sum_univ_one]
  refine Finset.sum_congr rfl fun y _ => Finset.sum_congr rfl fun x _ => ?_
  exact (shapeCast_addUnit_apply _ acc hc1 (ix3 0 y x)).trans (congrArg acc (funext fun a => by
    match a with
    | ⟨0, _⟩ => rfl
    | ⟨1, _⟩ => rfl))

/-- The kernel's tail: add up the accumulator over the interior, and store the total under the mask. -/
theorem kerTile_eq (acc : FVec Ideal KCut .f32) (hc1 : KCut.ShapeCasts KOne) (hr : KOne.Reduces [1, 2] K1)
    (hc2 : K1.ShapeCasts K111) (hpos : ∀ a, (![0, 0, 0] : Fin 3 → ℕ) a < K111.size a)
    (hi0 : KTile.Iotas .tc 32 [0]) (hi1 : KTile.Iotas .tc 32 [1]) (hc3 : KTile.ShapeCasts KOut)
    (hφ : FKind.Formats .f32) (hacc : (0x00000000#32 : BitVec 32) = 0x00000000#32) :
    shapeCast KOut (select (andi (cmpi .eq (iota .tc KTile 32 [0] hi0) (broadcast KTile 0#32))
                                 (cmpi .eq (iota .tc KTile 32 [1] hi1) (broadcast KTile 0#32)))
        (broadcast KTile (extractAt ![0, 0, 0] (shapeCast K111 (multiReduction .add [1, 2] K1 (shapeCast KOne acc hc1) 0x00000000#32 hr hφ hacc) hc2) hpos))
        (broadcast KTile (Scalar.ofBits (F := Ideal) .f32 0x00000000#32))) hc3
      = tileOf (∑ y : Fin 254, ∑ x : Fin 254, acc (ix2 y x)) := by
  funext j
  refine (shapeCast_addUnit_apply _ _ hc3 j).trans ?_
  refine (maskTile_apply hi0 hi1 _ _ _).trans ?_
  rw [kerTotal_eq]
  have hz : Scalar.ofBits (F := Ideal) .f32 0x00000000#32 = (0 : EReal) := Ideal.ofBits_zero_f32
  rw [hz]
  rfl

end Cert.CosMse

end
-- ==== Proof.KerBody.lean ====
/-
  What the kernel's body leaves in its [1, 8, 128] output block, as a function of the two input blocks.

  The body computes, over the 254 × 254 interior, the accumulator
    acc = 0 + d(0,0)² + d(0,1)² + d(0,2)² + d(1,0)² + d(1,2)² + d(2,0)² + d(2,1)² + d(2,2)²      (added left to right)
  with d(oy,ox) = cosAt P oy ox − cosAt S oy ox for its first block P and its second block S, adds `acc` up over
  the interior, and stores the total at row 0, lane 0 of a tile that is zero elsewhere.
-/
import proofs.«430499_j13503377179168_3_alg».proof.Proof.Gen.KernelIdeal.Frame
import proofs.«430499_j13503377179168_3_alg».proof.Proof.CosMap

set_option maxRecDepth 16384

noncomputable section

namespace Cert.CosMse.Ker

open Idealize.ShloMosaic Idealize.ShloMosaic.ValueIdx Cert.KernelIdeal Cert.KernelIdeal.Gen Cert.CosMse

/-- The squared difference of the two blocks' cosine maps at one offset, over the interior. -/
def sqdK (P S : KBlk.Idx → EReal) (oy ox : Fin 3) : FVec Ideal KCut .f32 :=
  mulf (subf (termK P oy ox) (termK S oy ox)) (subf (termK P oy ox) (termK S oy ox))

/-- The body's accumulator: the eight squared differences added, left to right, onto the zero plane. -/
def accK (P S : KBlk.Idx → EReal) : FVec Ideal KCut .f32 :=
  addf (addf (addf (addf (addf (addf (addf (addf
    (broadcast KCut (Scalar.ofBits (F := Ideal) .f32 0x00000000#32))
    (sqdK P S 0 0)) (sqdK P S 0 1)) (sqdK P S 0 2)) (sqdK P S 1 0)) (sqdK P S 1 2)) (sqdK P S 2 0)) (sqdK P S 2 1)) (sqdK P S 2 2)

theorem zero4 : (![0, 0, 0, 0] : Fin 4 → ℕ) = fun _ => 0 := by
  funext a; match a with | ⟨0, _⟩ => rfl | ⟨1, _⟩ => rfl | ⟨2, _⟩ => rfl | ⟨3, _⟩ => rfl

theorem zero3 : (![0, 0, 0] : Fin 3 → ℕ) = fun _ => 0 := by
  funext a; match a with | ⟨0, _⟩ => rfl | ⟨1, _⟩ => rfl | ⟨2, _⟩ => rfl

/-- The output block after the body: the interior total of the accumulator at row 0, lane 0, zero elsewhere. -/
theorem out_eq (x0 x1 : Vec Ideal S1x19x256x256 .f32) :
    out0_2 (F := Ideal) x0 x1 = tileOf (∑ y : Fin 254, ∑ x : Fin 254, accK x0 x1 (ix2 y x)) := by
  unfold out0_2
  rw [View.canon_unit_zero zero3]
  simp only [View.ld_unit_zero (S := S1x19x256x256) zero4]
  unfold k0_pay1 k0_pay17 k0_pay13 k0_pay11 k0_pay12 k0_pay14 k0_pay15 k0_pay16 k0_pay10 k0_pay9 k0_pay8 k0_pay7 k0_pay6
    k0_pay5 k0_pay4 k0_pay3 k0_pay2
  dsimp only
  have e0 := kerRsq_eq x0 shapeCasts_S1x19x256x256_S19x256x256 reduces_S19x256x256_S256x256 (.inl rfl) rfl
  have e1 := kerRsq_eq x1 shapeCasts_S1x19x256x256_S19x256x256 reduces_S19x256x256_S256x256 (.inl rfl) rfl
  rw [e0, e1]
  have t_x0_00 := kerTerm_eq x0 0 0 (by decide) (by decide) inb_S1x19x256x256_S1x19x254x254_0_0_1_1 inb_S1x19x256x256_S1x19x254x254_0_0_0_0
    shapeCasts_S1x19x254x254_S19x254x254 reduces_S19x254x254_S254x254 slices_S256x256_o1_1_S254x254 slices_S256x256_o0_0_S254x254 (.inl rfl) rfl
  have t_x0_01 := kerTerm_eq x0 0 1 (by decide) (by decide) inb_S1x19x256x256_S1x19x254x254_0_0_1_1 inb_S1x19x256x256_S1x19x254x254_0_0_0_1
    shapeCasts_S1x19x254x254_S19x254x254 reduces_S19x254x254_S254x254 slices_S256x256_o1_1_S254x254 slices_S256x256_o0_1_S254x254 (.inl rfl) rfl
  have t_x0_02 := kerTerm_eq x0 0 2 (by decide) (by decide) inb_S1x19x256x256_S1x19x254x254_0_0_1_1 inb_S1x19x256x256_S1x19x254x254_0_0_0_2
    shapeCasts_S1x19x254x254_S19x254x254 reduces_S19x254x254_S254x254 slices_S256x256_o1_1_S254x254 slices_S256x256_o0_2_S254x254 (.inl rfl) rfl
  have t_x0_10 := kerTerm_eq x0 1 0 (by decide) (by decide) inb_S1x19x256x256_S1x19x254x254_0_0_1_1 inb_S1x19x256x256_S1x19x254x254_0_0_1_0
    shapeCasts_S1x19x254x254_S19x254x254 reduces_S19x254x254_S254x254 slices_S256x256_o1_1_S254x254 slices_S256x256_o1_0_S254x254 (.inl rfl) rfl
  have t_x0_12 := kerTerm_eq x0 1 2 (by decide) (by decide) inb_S1x19x256x256_S1x19x254x254_0_0_1_1 inb_S1x19x256x256_S1x19x254x254_0_0_1_2
    shapeCasts_S1x19x254x254_S19x254x254 reduces_S19x254x254_S254x254 slices_S256x256_o1_1_S254x254 slices_S256x256_o1_2_S254x254 (.inl rfl) rfl
  have t_x0_20 := kerTerm_eq x0 2 0 (by decide) (by decide) inb_S1x19x256x256_S1x19x254x254_0_0_1_1 inb_S1x19x256x256_S1x19x254x254_0_0_2_0
    shapeCasts_S1x19x254x254_S19x254x254 reduces_S19x254x254_S254x254 slices_S256x256_o1_1_S254x254 slices_S256x256_o2_0_S254x254 (.inl rfl) rfl
  have t_x0_21 := kerTerm_eq x0 2 1 (by decide) (by decide) inb_S1x19x256x256_S1x19x254x254_0_0_1_1 inb_S1x19x256x256_S1x19x254x254_0_0_2_1
    shapeCasts_S1x19x254x254_S19x254x254 reduces_S19x254x254_S254x254 slices_S256x256_o1_1_S254x254 slices_S256x256_o2_1_S254x254 (.inl rfl) rfl
  have t_x0_22 := kerTerm_eq x0 2 2 (by decide) (by decide) inb_S1x19x256x256_S1x19x254x254_0_0_1_1 inb_S1x19x256x256_S1x19x254x254_0_0_2_2
    shapeCasts_S1x19x254x254_S19x254x254 reduces_S19x254x254_S254x254 slices_S256x256_o1_1_S254x254 slices_S256x256_o2_2_S254x254 (.inl rfl) rfl
  have t_x1_00 := kerTerm_eq x1 0 0 (by decide) (by decide) inb_S1x19x256x256_S1x19x254x254_0_0_1_1 inb_S1x19x256x256_S1x19x254x254_0_0_0_0
    shapeCasts_S1x19x254x254_S19x254x254 reduces_S19x254x254_S254x254 slices_S256x256_o1_1_S254x254 slices_S256x256_o0_0_S254x254 (.inl rfl) rfl
  have t_x1_01 := kerTerm_eq x1 0 1 (by decide) (by decide) inb_S1x19x256x256_S1x19x254x254_0_0_1_1 inb_S1x19x256x256_S1x19x254x254_0_0_0_1
    shapeCasts_S1x19x254x254_S19x254x254 reduces_S19x254x254_S254x254 slices_S256x256_o1_1_S254x254 slices_S256x256_o0_1_S254x254 (.inl rfl) rfl
  have t_x1_02 := kerTerm_eq x1 0 2 (by decide) (by decide) inb_S1x19x256x256_S1x19x254x254_0_0_1_1 inb_S1x19x256x256_S1x19x254x254_0_0_0_2
    shapeCasts_S1x19x254x254_S19x254x254 reduces_S19x254x254_S254x254 slices_S256x256_o1_1_S254x254 slices_S256x256_o0_2_S254x254 (.inl rfl) rfl
  have t_x1_10 := kerTerm_eq x1 1 0 (by decide) (by decide) inb_S1x19x256x256_S1x19x254x254_0_0_1_1 inb_S1x19x256x256_S1x19x254x254_0_0_1_0
    shapeCasts_S1x19x254x254_S19x254x254 reduces_S19x254x254_S254x254 slices_S256x256_o1_1_S254x254 slices_S256x256_o1_0_S254x254 (.inl rfl) rfl
  have t_x1_12 := kerTerm_eq x1 1 2 (by decide) (by decide) inb_S1x19x256x256_S1x19x254x254_0_0_1_1 inb_S1x19x256x256_S1x19x254x254_0_0_1_2
    shapeCasts_S1x19x254x254_S19x254x254 reduces_S19x254x254_S254x254 slices_S256x256_o1_1_S254x254 slices_S256x256_o1_2_S254x254 (.inl rfl) rfl
  have t_x1_20 := kerTerm_eq x1 2 0 (by decide) (by decide) inb_S1x19x256x256_S1x19x254x254_0_0_1_1 inb_S1x19x256x256_S1x19x254x254_0_0_2_0
    shapeCasts_S1x19x254x254_S19x254x254 reduces_S19x254x254_S254x254 slices_S256x256_o1_1_S254x254 slices_S256x256_o2_0_S254x254 (.inl rfl) rfl
  have t_x1_21 := kerTerm_eq x1 2 1 (by decide) (by decide) inb_S1x19x256x256_S1x19x254x254_0_0_1_1 inb_S1x19x256x256_S1x19x254x254_0_0_2_1
    shapeCasts_S1x19x254x254_S19x254x254 reduces_S19x254x254_S254x254 slices_S256x256_o1_1_S254x254 slices_S256x256_o2_1_S254x254 (.inl rfl) rfl
  have t_x1_22 := kerTerm_eq x1 2 2 (by decide) (by decide) inb_S1x19x256x256_S1x19x254x254_0_0_1_1 inb_S1x19x256x256_S1x19x254x254_0_0_2_2
    shapeCasts_S1x19x254x254_S19x254x254 reduces_S19x254x254_S254x254 slices_S256x256_o1_1_S254x254 slices_S256x256_o2_2_S254x254 (.inl rfl) rfl
  rw [t_x0_00, t_x0_01, t_x0_02, t_x0_10, t_x0_12, t_x0_20, t_x0_21, t_x0_22, t_x1_00, t_x1_01, t_x1_02, t_x1_10, t_x1_12, t_x1_20, t_x1_21, t_x1_22]
  exact kerTile_eq (accK x0 x1) shapeCasts_S254x254_S1x254x254 reduces_S1x254x254_S1 shapeCasts_S1_S1x1x1 inpos_S1x1x1_p0_0_0
    iota_S8x128_d0_w32 iota_S8x128_d1_w32 shapeCasts_S8x128_S1x8x128 (.inl rfl) rfl

end Cert.CosMse.Ker

end
-- ==== Proof.Loss.lean ====
/-
  The loss as one function of the two argument arrays, and the two ways of adding it up.

    sqd P S o b y x = (cosAt P (offs o) b y x − cosAt S (offs o) b y x)²         for the eight neighbour offsets
    lossSum P S     = Σ_b Σ_o Σ_y Σ_x sqd P S o b y x
    loss P S        = (0 + lossSum P S) / 8258048

  The reference adds up in exactly this order.  The kernel adds the eight offsets first (into an accumulator that
  starts at zero), then the interior of each batch member, stores each member's total in one entry of an
  otherwise zero [8, 128] tile, and adds up all tiles.  Addition of extended reals is commutative and associative and
  zero is neutral, so the two totals agree; nothing here needs the entries to be finite.
-/
import proofs.«430499_j13503377179168_3_alg».proof.Proof.CosMap

noncomputable section

namespace Cert.CosMse

open Idealize.ShloMosaic Idealize.ShloMosaic.ValueIdx

/-- The eight neighbour offsets, in the order both programs visit them: the 3 × 3 window without its centre. -/
def offs : Fin 8 → Fin 3 × Fin 3 := ![(0, 0), (0, 1), (0, 2), (1, 0), (1, 2), (2, 0), (2, 1), (2, 2)]

/-- The squared difference of the two arrays' cosine maps at offset number `o`. -/
def sqd (P S : SArg.Idx → EReal) (o : Fin 8) (b : Fin 16) (y x : Fin 254) : EReal :=
  (cosAt P (offs o).1 (offs o).2 b y x - cosAt S (offs o).1 (offs o).2 b y x)
    * (cosAt P (offs o).1 (offs o).2 b y x - cosAt S (offs o).1 (offs o).2 b y x)

/-- The sum of all squared differences, in the reference's order. -/
def lossSum (P S : SArg.Idx → EReal) : EReal :=
  ∑ b : Fin 16, ∑ o : Fin 8, ∑ y : Fin 254, ∑ x : Fin 254, sqd P S o b y x

/-- The result of both programs: the mean over the 16 · 8 · 254 · 254 = 8258048 squared differences (the divisor is
    the float word of exactly that number; it is the same word on both sides and is never evaluated). -/
def loss (P S : SArg.Idx → EReal) : EReal :=
  Ideal.div (0 + lossSum P S) (Ideal.ofBits .f32 0x4AFC0400#32)

/-- One batch member's total as the kernel accumulates it: offsets first, from zero, then the interior. -/
def memberTotal (P S : SArg.Idx → EReal) (b : Fin 16) : EReal :=
  ∑ y : Fin 254, ∑ x : Fin 254,
    (0 + sqd P S 0 b y x + sqd P S 1 b y x + sqd P S 2 b y x + sqd P S 3 b y x + sqd P S 4 b y x + sqd P S 5 b y x
      + sqd P S 6 b y x + sqd P S 7 b y x)

/-- Adding the offsets first and the interior afterwards gives the same total. -/
theorem sum_memberTotal (P S : SArg.Idx → EReal) : ∑ b : Fin 16, memberTotal P S b = lossSum P S := by
  unfold memberTotal lossSum
  refine Finset.sum_congr rfl fun b _ => ?_
  have h : ∀ y x : Fin 254,
      (0 + sqd P S 0 b y x + sqd P S 1 b y x + sqd P S 2 b y x + sqd P S 3 b y x + sqd P S 4 b y x + sqd P S 5 b y x
        + sqd P S 6 b y x + sqd P S 7 b y x) = ∑ o : Fin 8, sqd P S o b y x := by
    intro y x; rw [Fin.sum_univ_eight, zero_add]
  calc (∑ y : Fin 254, ∑ x : Fin 254,
          (0 + sqd P S 0 b y x + sqd P S 1 b y x + sqd P S 2 b y x + sqd P S 3 b y x + sqd P S 4 b y x + sqd P S 5 b y x
            + sqd P S 6 b y x + sqd P S 7 b y x))
        = ∑ y : Fin 254, ∑ x : Fin 254, ∑ o : Fin 8, sqd P S o b y x :=
          Finset.sum_congr rfl fun y _ => Finset.sum_congr rfl fun x _ => h y x
    _ = ∑ y : Fin 254, ∑ o : Fin 8, ∑ x : Fin 254, sqd P S o b y x :=
          Finset.sum_congr rfl fun y _ => Finset.sum_comm
    _ = ∑ o : Fin 8, ∑ y : Fin 254, ∑ x : Fin 254, sqd P S o b y x := Finset.sum_comm

/-- A family of tiles, each zero outside its first entry, adds up to the sum of the first entries. -/
theorem sum_tiles (T : Fin 16 → EReal) :
    ∑ b : Fin 16, ∑ r : Fin 8, ∑ c : Fin 128, (if r.val = 0 ∧ c.val = 0 then T b else 0) = ∑ b : Fin 16, T b := by
  refine Finset.sum_congr rfl fun b _ => ?_
  rw [Finset.sum_eq_single (0 : Fin 8)]
  · rw [Finset.sum_eq_single (0 : Fin 128)]
    · simp
    · intro c _ hc
      have : c.val ≠ 0 := fun h => hc (Fin.ext h)
      simp [this]
    · intro h; exact absurd (Finset.mem_univ _) h
  · intro r _ hr
    have : r.val ≠ 0 := fun h => hr (Fin.ext h)
    simp [this]
  · intro h; exact absurd (Finset.mem_univ _) h

end Cert.CosMse

end
-- ==== Proof.KerValue.lean ====
/-
  The kernel program's result is `loss` of its two arguments.

  Grid point `t` stages batch member `t` of each argument (a [1, 19, 256, 256] block) and writes back one
  [1, 8, 128] tile: member `t`'s total of squared differences at row 0, lane 0, zero elsewhere.  The sixteen tiles
  fill the [16, 8, 128] output; the host then adds up every entry from zero and divides by the entry count.
-/
import proofs.«430499_j13503377179168_3_alg».proof.Proof.Gen.KernelIdeal.Frame
import proofs.«430499_j13503377179168_3_alg».proof.Proof.KerBody
import proofs.«430499_j13503377179168_3_alg».proof.Proof.Loss
import Idealize.ShloMosaic.Lib.StableHlo.Run

set_option maxRecDepth 16384

noncomputable section

namespace Cert.CosMse.Ker

open Idealize.ShloMosaic Idealize.ShloMosaic.TcCoe Idealize.ShloMosaic.ValueIdx Idealize.ShloMosaic.StableHlo
open Idealize.SL.Sem
open Cert.KernelIdeal Cert.KernelIdeal.Gen Cert.CosMse

/-- The accumulator of a pair of blocks that are member `b` of two arrays, at an interior pixel: zero plus the
    eight squared differences of the arrays' cosine maps at member `b`, in the offsets' order. -/
theorem accK_apply (X0 X1 : KBlk.Idx → EReal) (P S : SArg.Idx → EReal) (b : Fin 16)
    (h0 : ∀ ch i j, X0 (ix4 0 ch i j) = P (ix4 b ch i j)) (h1 : ∀ ch i j, X1 (ix4 0 ch i j) = S (ix4 b ch i j))
    (y x : Fin 254) :
    accK X0 X1 (ix2 y x)
      = 0 + sqd P S 0 b y x + sqd P S 1 b y x + sqd P S 2 b y x + sqd P S 3 b y x + sqd P S 4 b y x
          + sqd P S 5 b y x + sqd P S 6 b y x + sqd P S 7 b y x := by
  have c0 : ∀ oy ox, cosAt X0 oy ox 0 y x = cosAt P oy ox b y x := fun oy ox => cosAt_congr X0 P 0 b h0 oy ox y x
  have c1 : ∀ oy ox, cosAt X1 oy ox 0 y x = cosAt S oy ox b y x := fun oy ox => cosAt_congr X1 S 0 b h1 oy ox y x
  have hz : Scalar.ofBits (F := Ideal) .f32 0x00000000#32 = (0 : EReal) := Ideal.ofBits_zero_f32
  unfold accK sqdK termK
  simp only [addf_apply, mulf_apply, subf_apply, broadcast_apply, hz]
  show 0 + (cosAt X0 0 0 0 y x - cosAt X1 0 0 0 y x) * (cosAt X0 0 0 0 y x - cosAt X1 0 0 0 y x)
      + (cosAt X0 0 1 0 y x - cosAt X1 0 1 0 y x) * (cosAt X0 0 1 0 y x - cosAt X1 0 1 0 y x)
      + (cosAt X0 0 2 0 y x - cosAt X1 0 2 0 y x) * (cosAt X0 0 2 0 y x - cosAt X1 0 2 0 y x)
      + (cosAt X0 1 0 0 y x - cosAt X1 1 0 0 y x) * (cosAt X0 1 0 0 y x - cosAt X1 1 0 0 y x)
      + (cosAt X0 1 2 0 y x - cosAt X1 1 2 0 y x) * (cosAt X0 1 2 0 y x - cosAt X1 1 2 0 y x)
      + (cosAt X0 2 0 0 y x - cosAt X1 2 0 0 y x) * (cosAt X0 2 0 0 y x - cosAt X1 2 0 0 y x)
      + (cosAt X0 2 1 0 y x - cosAt X1 2 1 0 y x) * (cosAt X0 2 1 0 y x - cosAt X1 2 1 0 y x)
      + (cosAt X0 2 2 0 y x - cosAt X1 2 2 0 y x) * (cosAt X0 2 2 0 y x - cosAt X1 2 2 0 y x) = _
  simp only [c0, c1]
  rfl

variable (m : (ℓ : Loc nD τ sig) → Buf (Elt Ideal) ℓ) (ρ : Dev nD → PrngReg)

/-- The first argument as launched. -/
abbrev argP (c : Dev nD) : FVec Ideal SArg .f32 := m ((c : Thread nD τ).loc main_arg0)
/-- The second argument as launched. -/
abbrev argS (c : Dev nD) : FVec Ideal SArg .f32 := m ((c : Thread nD τ).loc main_arg1)

/-- The output array: member `b`'s total at (b, 0, 0), zero elsewhere. -/
def tiles (P S : SArg.Idx → EReal) : S16x8x128.Idx → EReal :=
  fun i => if (i 1).val = 0 ∧ (i 2).val = 0 then memberTotal P S (i 0) else 0

/-- The printed index maps, decided over the grid: every window's block index is the grid point on the batch axis
    and zero on the others. -/
theorem idx_facts : ∀ t : Fin cfg0.N,
    win0_0.index t (0 : Fin 4) = t.val ∧ win0_0.index t (1 : Fin 4) = 0 ∧ win0_0.index t (2 : Fin 4) = 0 ∧ win0_0.index t (3 : Fin 4) = 0
    ∧ win0_1.index t (0 : Fin 4) = t.val ∧ win0_1.index t (1 : Fin 4) = 0 ∧ win0_1.index t (2 : Fin 4) = 0 ∧ win0_1.index t (3 : Fin 4) = 0
    ∧ win0_2.index t (0 : Fin 3) = t.val ∧ win0_2.index t (1 : Fin 3) = 0 ∧ win0_2.index t (2 : Fin 3) = 0 :=
  (by decide +kernel : ∀ t : Fin grid0.N, _)

/-- The grid point as a batch member. -/
def member (t : Fin cfg0.N) : Fin 16 := ⟨t.val, by have := t.isLt; have e : cfg0.N = 16 := N_0; omega⟩

/-- The first window's block at point `t` is member `t` of the first argument. -/
theorem blkP (c : Dev nD) (t : Fin cfg0.N) (ch : Fin 19) (i j : Fin 256) :
    (iblk m c 0 t : KBlk.Idx → EReal) (ix4 0 ch i j) = argP m c (ix4 (member t) ch i j) := by
  obtain ⟨e0, e1, e2, e3, -⟩ := idx_facts t
  show V m c main_arg0 (((cfg0.win 0).blk t).view.emb (ix4 0 ch i j)) = _
  rw [V_main_arg0]
  refine congrArg (m ((c : Thread nD τ).loc main_arg0)) (funext fun a => Fin.ext ?_)
  match a with
  | ⟨0, _⟩ => show win0_0.index t (0 : Fin 4) * 1 + 1 * 0 = t.val; omega
  | ⟨1, _⟩ => show win0_0.index t (1 : Fin 4) * 19 + 1 * ch.val = ch.val; omega
  | ⟨2, _⟩ => show win0_0.index t (2 : Fin 4) * 256 + 1 * i.val = i.val; omega
  | ⟨3, _⟩ => show win0_0.index t (3 : Fin 4) * 256 + 1 * j.val = j.val; omega

/-- The second window's block at point `t` is member `t` of the second argument. -/
theorem blkS (c : Dev nD) (t : Fin cfg0.N) (ch : Fin 19) (i j : Fin 256) :
    (iblk m c 1 t : KBlk.Idx → EReal) (ix4 0 ch i j) = argS m c (ix4 (member t) ch i j) := by
  obtain ⟨-, -, -, -, e0, e1, e2, e3, -⟩ := idx_facts t
  show V m c main_arg1 (((cfg0.win 1).blk t).view.emb (ix4 0 ch i j)) = _
  rw [V_main_arg1]
  refine congrArg (m ((c : Thread nD τ).loc main_arg1)) (funext fun a => Fin.ext ?_)
  match a with
  | ⟨0, _⟩ => show win0_1.index t (0 : Fin 4) * 1 + 1 * 0 = t.val; omega
  | ⟨1, _⟩ => show win0_1.index t (1 : Fin 4) * 19 + 1 * ch.val = ch.val; omega
  | ⟨2, _⟩ => show win0_1.index t (2 : Fin 4) * 256 + 1 * i.val = i.val; omega
  | ⟨3, _⟩ => show win0_1.index t (3 : Fin 4) * 256 + 1 * j.val = j.val; omega

/-- The interior total of the blocks' accumulator at point `t` is member `t`'s total. -/
theorem total_eq (c : Dev nD) (t : Fin cfg0.N) :
    (∑ y : Fin 254, ∑ x : Fin 254, accK (iblk m c 0 t : KBlk.Idx → EReal) (iblk m c 1 t : KBlk.Idx → EReal) (ix2 y x))
      = memberTotal (argP m c) (argS m c) (member t) := by
  unfold memberTotal
  exact Finset.sum_congr rfl fun y _ => Finset.sum_congr rfl fun x _ =>
    accK_apply _ _ (argP m c) (argS m c) (member t) (blkP m c t) (blkS m c t) y x

/-- WHAT POINT `t` WRITES BACK is block `t` of `tiles` of the arguments. -/
theorem flushed_eq (c : Dev nD) (t : Fin cfg0.N) :
    (dats m 0 c).flushed 2 t = ((cfg0.win 2).blk t).view.read (Elt Ideal) (tiles (argP m c) (argS m c)) := by
  show (cfg0.win 2).cut (grid0.coords t) ((dats m 0 c).after 2 t) = _
  rw [after0_2, out_eq, total_eq]
  obtain ⟨-, -, -, -, -, -, -, -, e0, e1, e2⟩ := idx_facts t
  funext j
  show tileOf (memberTotal (argP m c) (argS m c) (member t)) j
    = tiles (argP m c) (argS m c) (((cfg0.win 2).blk t).view.emb j)
  unfold tileOf tiles
  have h0 : (((cfg0.win 2).blk t).view.emb j) 0 = member t := Fin.ext (by
    show win0_2.index t (0 : Fin 3) * 1 + 1 * (j 0).val = t.val
    have hj : (j 0).val < 1 := (j 0).isLt
    omega)
  have h1 : ((((cfg0.win 2).blk t).view.emb j) 1).val = (j 1).val := by
    show win0_2.index t (1 : Fin 3) * 8 + 1 * (j 1).val = (j 1).val; omega
  have h2 : ((((cfg0.win 2).blk t).view.emb j) 2).val = (j 2).val := by
    show win0_2.index t (2 : Fin 3) * 128 + 1 * (j 2).val = (j 2).val; omega
  rw [h0, h1, h2]

/-- An index of the output is in point `t`'s block iff each coordinate is in the block's range on its axis. -/
theorem mem_blk (t : Fin cfg0.N) (i : S16x8x128.Idx) :
    i ∈ ((cfg0.win 2).blk t).view.set ↔ ∀ a : Fin 3, win0_2.index t a * S1x8x128.size a ≤ (i a).val
      ∧ (i a).val < win0_2.index t a * S1x8x128.size a + S1x8x128.size a := by
  show i ∈ ((View.whole main_v0).slice (win0_2.rect t)).set ↔ _
  rw [View.set_slice_whole, Rect.mem_set_unit]
  exact Iff.rfl

/-- Every entry of the output is in the block of the point numbered by its batch coordinate. -/
theorem cover (i : S16x8x128.Idx) :
    ∃ t : Fin cfg0.N, (cfg0.win 2).flush t = true ∧ i ∈ ((cfg0.win 2).blk t).view.set := by
  have hi0 : (i 0).val < 16 := (i 0).isLt
  have hi1 : (i 1).val < 8 := (i 1).isLt
  have hi2 : (i 2).val < 128 := (i 2).isLt
  have eN : cfg0.N = 16 := N_0
  let t : Fin cfg0.N := ⟨(i 0).val, by omega⟩
  obtain ⟨-, -, -, -, -, -, -, -, e0, e1, e2⟩ := idx_facts t
  have e0' : win0_2.index t (0 : Fin 3) = (i 0).val := e0
  refine ⟨t, flush0_2 t, ?_⟩
  rw [mem_blk]
  intro a
  match a with
  | ⟨0, _⟩ => show win0_2.index t (0 : Fin 3) * 1 ≤ (i 0).val ∧ (i 0).val < win0_2.index t (0 : Fin 3) * 1 + 1; omega
  | ⟨1, _⟩ => show win0_2.index t (1 : Fin 3) * 8 ≤ (i 1).val ∧ (i 1).val < win0_2.index t (1 : Fin 3) * 8 + 8; omega
  | ⟨2, _⟩ => show win0_2.index t (2 : Fin 3) * 128 ≤ (i 2).val ∧ (i 2).val < win0_2.index t (2 : Fin 3) * 128 + 128; omega

/-- THE OUTPUT ARRAY after the region is `tiles` of the arguments. -/
theorem final (c : Dev nD) : (dats m 0 c).arrAt 2 cfg0.N = tiles (argP m c) (argS m c) :=
  (dats m 0 c).arrAt_eq_of_cover 2 (tiles (argP m c) (argS m c)) (fun t _ => flushed_eq m c t) cover

/-- All tiles added up from zero, divided by the entry count, is the loss. -/
theorem tiles_loss (P S : SArg.Idx → EReal) :
    (Host.divf (Host.reduceAdd (tiles P S : FVec Ideal S16x8x128 .f32) (constant S_ .f32 0x00000000#32)
        reducesTo_S16x8x128_S_d0_1_2 h_S_) (constant S_ .f32 0x4AFC0400#32) : FVec Ideal S_ .f32)
      = fun _ => loss P S := by
  funext i
  rw [hostDivf_apply, hostReduceAdd_apply, Ideal.hostReduceAdd_total reducesTo_S16x8x128_S_d0_1_2 (fun b => b.elim0),
    constant_apply, constant_apply, Ideal.ofBits_zero_f32, sum_idx3]
  unfold loss
  rw [← sum_memberTotal]
  refine congrArg (fun s => Ideal.div (0 + s) (Ideal.ofBits .f32 0x4AFC0400#32)) ?_
  exact sum_tiles (memberTotal P S)

/-- The result buffer after the host lines that follow the region. -/
theorem tail_eq (c : Dev nD) :
    Pipeline.afterTail₀ cfgs (dats m) 0 (V0 m) [hostOps1] c main_v2 = fun _ => loss (argP m c) (argS m c) := by
  unfold Pipeline.afterTail₀
  show StableHlo.after hostOps1 _ (Proc.devRef .tc main_v2) = _
  after_results
  rw [(Pipeline.withArrays_arr spec0 launch0.win.arr_inj c _ _ 2).trans (final m c)]
  exact tiles_loss _ _

/-- The kernel program's run: the result buffer ends at the loss of the launch arguments, the arguments unchanged. -/
theorem run : θ_run defs (onTc (τ := τ) (main (F := Ideal))) ⟨m, fun _ => 0, ρ⟩ fun r => ∀ c : Dev nD,
      r.2.mem ((c.tc : Thread nD τ).loc main_v2) = (fun _ => loss (argP m c) (argS m c))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.CosMse.Ker

end
-- ==== Proof.RefValue.lean ====
/-
  The reference's result is `loss` of its two arguments.

  Its sixteen pieces (eight neighbour offsets for each argument) are the cosine maps; each argument's eight pieces are
  laid side by side along a new axis of extent 8; the two stacks are subtracted, squared entry by entry, added up
  over all four axes starting from zero, and divided by the number of entries.
-/
import proofs.«430499_j13503377179168_3_alg».proof.Proof.Gen.ReferenceIdeal.Run
import proofs.«430499_j13503377179168_3_alg».proof.Proof.Loss

set_option maxRecDepth 16384

noncomputable section

namespace Cert.CosMse.Ref

open Idealize.ShloMosaic Idealize.ShloMosaic.ValueIdx Idealize.ShloMosaic.StableHlo Idealize.SL.Sem
open Cert.ReferenceIdeal Cert.ReferenceIdeal.Gen Cert.ReferenceIdeal.Value Cert.CosMse

abbrev SAll : Shape := ⟨4, ![16, 8, 254, 254]⟩

/-- The eight pieces of one argument, in the order they are laid side by side. -/
def piecesOf (A : FVec Ideal SArg .f32) : Fin 8 → FVec Ideal SOne .f32 :=
  ![refPiece A 0 0 slices_S16x19x256x256_S16x19x254x254_0_0_1_1 slices_S16x19x256x256_S16x19x254x254_0_0_0_0 reducesTo_S16x19x254x254_S16x254x254_d1 h_S_ bcast_S16x254x254_S16x1x254x254_0_2_3,
    refPiece A 0 1 slices_S16x19x256x256_S16x19x254x254_0_0_1_1 slices_S16x19x256x256_S16x19x254x254_0_0_0_1 reducesTo_S16x19x254x254_S16x254x254_d1 h_S_ bcast_S16x254x254_S16x1x254x254_0_2_3,
    refPiece A 0 2 slices_S16x19x256x256_S16x19x254x254_0_0_1_1 slices_S16x19x256x256_S16x19x254x254_0_0_0_2 reducesTo_S16x19x254x254_S16x254x254_d1 h_S_ bcast_S16x254x254_S16x1x254x254_0_2_3,
    refPiece A 1 0 slices_S16x19x256x256_S16x19x254x254_0_0_1_1 slices_S16x19x256x256_S16x19x254x254_0_0_1_0 reducesTo_S16x19x254x254_S16x254x254_d1 h_S_ bcast_S16x254x254_S16x1x254x254_0_2_3,
    refPiece A 1 2 slices_S16x19x256x256_S16x19x254x254_0_0_1_1 slices_S16x19x256x256_S16x19x254x254_0_0_1_2 reducesTo_S16x19x254x254_S16x254x254_d1 h_S_ bcast_S16x254x254_S16x1x254x254_0_2_3,
    refPiece A 2 0 slices_S16x19x256x256_S16x19x254x254_0_0_1_1 slices_S16x19x256x256_S16x19x254x254_0_0_2_0 reducesTo_S16x19x254x254_S16x254x254_d1 h_S_ bcast_S16x254x254_S16x1x254x254_0_2_3,
    refPiece A 2 1 slices_S16x19x256x256_S16x19x254x254_0_0_1_1 slices_S16x19x256x256_S16x19x254x254_0_0_2_1 reducesTo_S16x19x254x254_S16x254x254_d1 h_S_ bcast_S16x254x254_S16x1x254x254_0_2_3,
    refPiece A 2 2 slices_S16x19x256x256_S16x19x254x254_0_0_1_1 slices_S16x19x256x256_S16x19x254x254_0_0_2_2 reducesTo_S16x19x254x254_S16x254x254_d1 h_S_ bcast_S16x254x254_S16x1x254x254_0_2_3]

/-- Piece number `o` is the cosine map at offset number `o`. -/
theorem piecesOf_apply (A : FVec Ideal SArg .f32) (o : Fin 8) (b : Fin 16) (u : Fin 1) (y x : Fin 254) :
    piecesOf A o (ix4 b u y x) = cosAt A (offs o).1 (offs o).2 b y x := by
  fin_cases o <;> exact refPiece_apply A _ _ (by decide) (by decide) _ _ _ _ _ b u y x

/-- Eight arrays with a unit second axis laid side by side along it: entry (b, o, y, x) is entry (b, 0, y, x) of
    array number `o`. -/
theorem stack_apply (f : Fin 8 → FVec Ideal SOne .f32)
    (h : Shape.Concatenates ((List.ofFn fun n : Fin 8 => (⟨SOne, f n⟩ : (s : Shape) × (s.Idx → EReal))).map (·.1)) SAll 1)
    (b : Fin 16) (o : Fin 8) (y x : Fin 254) :
    concatenate SAll 1 (List.ofFn fun n : Fin 8 => (⟨SOne, f n⟩ : (s : Shape) × (s.Idx → EReal))) h (ix4 b o y x)
      = f o (ix4 b 0 y x) :=
  concatenate_ofFn_unit_apply (t := SAll) (s₁ := SOne) 1 f h rfl rfl (ix4 b o y x) o rfl (ix4 b 0 y x) (fun a ha => by
    match a with
    | ⟨0, _⟩ => rfl
    | ⟨1, _⟩ => exact absurd rfl ha
    | ⟨2, _⟩ => rfl
    | ⟨3, _⟩ => rfl)

variable (V0 : Valuation τ sig (Elt Ideal))

/-- The first argument as the run finds it. -/
abbrev argP : FVec Ideal SArg .f32 := V0 (Proc.devRef .tc main_arg0)
/-- The second argument as the run finds it. -/
abbrev argS : FVec Ideal SArg .f32 := V0 (Proc.devRef .tc main_arg1)

/-- The first argument's stack, as the run spells it, is the eight pieces side by side. -/
theorem stackP_eq : (res_main_v85 (F := Ideal) V0 : FVec Ideal SAll .f32)
    = concatenate SAll 1 (List.ofFn fun n : Fin 8 => (⟨SOne, piecesOf (argP V0) n⟩ : (s : Shape) × (s.Idx → EReal)))
        concatenates_S16x1x254x254_S16x1x254x254_S16x1x254x254_S16x1x254x254_S16x1x254x254_S16x1x254x254_S16x1x254x254_S16x1x254x254_S16x8x254x254_d1 := by
  unfold res_main_v85 res_main_v4 res_main_v0 res_main_v5 res_main_v15 res_main_v25 res_main_v35 res_main_v45 res_main_v55
    res_main_v65 res_main_v75
  rfl

/-- The second argument's stack likewise. -/
theorem stackS_eq : (res_main_v171 (F := Ideal) V0 : FVec Ideal SAll .f32)
    = concatenate SAll 1 (List.ofFn fun n : Fin 8 => (⟨SOne, piecesOf (argS V0) n⟩ : (s : Shape) × (s.Idx → EReal)))
        concatenates_S16x1x254x254_S16x1x254x254_S16x1x254x254_S16x1x254x254_S16x1x254x254_S16x1x254x254_S16x1x254x254_S16x1x254x254_S16x8x254x254_d1 := by
  unfold res_main_v171 res_main_v90 res_main_v86 res_main_v91 res_main_v101 res_main_v111 res_main_v121 res_main_v131
    res_main_v141 res_main_v151 res_main_v161
  rfl

/-- The squared difference of the two stacks, entry by entry. -/
theorem sqdiff_apply (b : Fin 16) (o : Fin 8) (y x : Fin 254) :
    (mulf (res_main_v172 (F := Ideal) V0) (res_main_v172 (F := Ideal) V0) : FVec Ideal SAll .f32) (ix4 b o y x)
      = sqd (argP V0) (argS V0) o b y x := by
  have eP : (res_main_v85 (F := Ideal) V0 : FVec Ideal SAll .f32) (ix4 b o y x)
      = cosAt (argP V0) (offs o).1 (offs o).2 b y x := by
    rw [stackP_eq]
    exact (stack_apply (piecesOf (argP V0)) _ b o y x).trans (piecesOf_apply _ o b 0 y x)
  have eS : (res_main_v171 (F := Ideal) V0 : FVec Ideal SAll .f32) (ix4 b o y x)
      = cosAt (argS V0) (offs o).1 (offs o).2 b y x := by
    rw [stackS_eq]
    exact (stack_apply (piecesOf (argS V0)) _ b o y x).trans (piecesOf_apply _ o b 0 y x)
  unfold res_main_v172 sqd
  show (_ - _) * (_ - _) = _
  rw [eP, eS]

/-- The run's result term is the loss. -/
theorem result_eq :
    (Host.divf (Host.reduceAdd (mulf (res_main_v172 (F := Ideal) V0) (res_main_v172 (F := Ideal) V0))
        (constant S_ .f32 0x00000000#32) reducesTo_S16x8x254x254_S_d0_1_2_3 h_S_) (constant S_ .f32 0x4AFC0400#32)
      : FVec Ideal S_ .f32) = fun _ => loss (argP V0) (argS V0) := by
  funext i
  rw [hostDivf_apply, hostReduceAdd_apply,
    Ideal.hostReduceAdd_total reducesTo_S16x8x254x254_S_d0_1_2_3 (fun b => b.elim0), constant_apply, constant_apply,
    Ideal.ofBits_zero_f32]
  unfold loss lossSum
  rw [sum_idx4]
  simp only [sqdiff_apply]

end Cert.CosMse.Ref

end
-- ==== Proof.lean ====
/-
  The certificate: a Pallas kernel for the mean squared difference of two neighbour-cosine maps against its jnp
  reference, over the extended reals.

  For two arrays P, S of shape [16, 19, 256, 256] both programs return
    loss P S = ( Σ_b Σ_o Σ_(y,x) (cosAt P o b y x − cosAt S o b y x)² ) / 8258048,
  where `cosAt` is the cosine of the channel vector at interior pixel (1 + y, 1 + x) with the channel vector of its
  neighbour at one of the eight offsets `o` (Proof/CosMap.lean), the sums run over 16 batch members, 8 offsets and the
  254 × 254 interior, and 8258048 = 16 · 8 · 254 · 254.

  * The reference slices first and reduces each slice; its result is `loss` term by term (Proof/RefValue.lean, over
    the generated run of the reference).
  * The kernel reduces each batch member's whole plane once, slices afterwards, accumulates the eight offsets and the
    interior inside the body (Proof/KerBody.lean), leaves one total per member in an otherwise zero tile, and the host
    adds the tiles up (Proof/KerValue.lean, over the generated frame run).
  * The two totals are rearrangements of one sum of extended reals (Proof/Loss.lean): commutativity and
    associativity of addition and `0 + a = a` only, so the precondition (finite inputs) is never opened.
  The three frames are the generated frame runs; the idealization rewrote nothing, so `preserves` is trivial.
-/
import proofs.«430499_j13503377179168_3_alg».proof.Defs
import proofs.«430499_j13503377179168_3_alg».proof.Proof.Gen.Kernel
import proofs.«430499_j13503377179168_3_alg».proof.Proof.Gen.Kernel.Skeleton
import proofs.«430499_j13503377179168_3_alg».proof.Proof.Gen.Kernel.Launch
import proofs.«430499_j13503377179168_3_alg».proof.Proof.Gen.Kernel.Points
import proofs.«430499_j13503377179168_3_alg».proof.Proof.Gen.Kernel.Frame
import proofs.«430499_j13503377179168_3_alg».proof.Proof.Gen.KernelIdeal
import proofs.«430499_j13503377179168_3_alg».proof.Proof.Gen.KernelIdeal.Skeleton
import proofs.«430499_j13503377179168_3_alg».proof.Proof.Gen.KernelIdeal.Launch
import proofs.«430499_j13503377179168_3_alg».proof.Proof.Gen.KernelIdeal.Points
import proofs.«430499_j13503377179168_3_alg».proof.Proof.Gen.KernelIdeal.Frame
import proofs.«430499_j13503377179168_3_alg».proof.Proof.Gen.ReferenceIdeal
import proofs.«430499_j13503377179168_3_alg».proof.Proof.Gen.ReferenceIdeal.Run
import proofs.«430499_j13503377179168_3_alg».proof.Proof.Gen.Pre_finite_inputs
import proofs.«430499_j13503377179168_3_alg».proof.Proof.KerValue
import proofs.«430499_j13503377179168_3_alg».proof.Proof.RefValue
import Idealize.ShloMosaic.Adequacy
import Idealize.ShloMosaic.Init

noncomputable section

namespace Cert.Proof

open Idealize.ShloMosaic Idealize.ShloMosaic.TcCoe Idealize.SL.Sem

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The idealized reference runs and keeps its arguments: its run, the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories that agree on the arguments both idealized programs end at the loss of those arguments. -/
theorem algebraic : Cert.algebraic_KernelIdeal_ReferenceIdeal := by
  intro m ρ m' ρ' _ hagree
  refine ⟨fun c _ => Cert.CosMse.loss (Cert.CosMse.Ker.argP m c) (Cert.CosMse.Ker.argS m c), Cert.CosMse.Ker.run m ρ, ?_⟩
  refine (θ_run Cert.ReferenceIdeal.defs _ _).mono (fun _ h c => ⟨(h c).1.trans ?_, (h c).2⟩)
    (Cert.ReferenceIdeal.Value.run (F := Ideal) m' ρ')
  rw [Cert.CosMse.Ref.result_eq]
  show (fun _ => Cert.CosMse.loss
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))) = _
  rw [(hagree c).1, (hagree c).2]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
